-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S8192x512 : Shape := ⟨2, ![8192, 512]⟩
abbrev S1x8192 : Shape := ⟨2, ![1, 8192]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16384x512 .f32) (main_arg1 : FVec F S8192x512 .f32) (main_arg2 : FVec F S1x8192 .f32) (main_arg3 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16384x512 : Shape := ⟨2, ![16384, 512]⟩
abbrev S8192x512 : Shape := ⟨2, ![8192, 512]⟩
abbrev S1x8192 : Shape := ⟨2, ![1, 8192]⟩
abbrev S1 : Shape := ⟨1, ![1]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S2048x512 : Shape := ⟨2, ![2048, 512]⟩
abbrev S1x2048 : Shape := ⟨2, ![1, 2048]⟩
abbrev S2048x1 : Shape := ⟨2, ![2048, 1]⟩
abbrev S2048x128 : Shape := ⟨2, ![2048, 128]⟩
abbrev S2048x2048 : Shape := ⟨2, ![2048, 2048]⟩
abbrev S1x128 : Shape := ⟨2, ![1, 128]⟩
abbrev S2048 : Shape := ⟨1, ![2048]⟩

abbrev nBuf : Space → Nat
  | .hbm => 20
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S8192x512, .f32⟩
  | .hbm, ⟨2, _⟩ => ⟨S1x8192, .f32⟩
  | .hbm, ⟨3, _⟩ => ⟨S1, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S16384x512, .bf16⟩
  | .hbm, ⟨14, _⟩ => ⟨S8192x512, .bf16⟩
  | .hbm, ⟨15, _⟩ => ⟨S16384x1, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S2048x1, .f32⟩
  | .local _ .vmem, ⟨7, _⟩ => ⟨S2048x1, .f32⟩
  | .local _ .vmem, ⟨8, _⟩ => ⟨S1x2048, .f32⟩
  | .local _ .vmem, ⟨9, _⟩ => ⟨S1x2048, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v110 : BitVec 1 := Scalar.cmpi .eq arg1 c3_i32
  let v111 : BitVec 32 := Scalar.extui v110
  let c0_i32_18 : BitVec 32 := 0#32
  let v112 : BitVec 1 := Scalar.cmpi .ne v111 c0_i32_18
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S8192x512_S8192_d1 : S8192x512.ReducesTo [1] S8192
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  slices_S2048x2048_o0_0_S2048x128 : S2048x2048.Slices ![0, 0] S2048x128
  slices_S1x2048_o0_0_S1x128 : S1x2048.Slices ![0, 0] S1x128
  broadcasts_S1x128_S2048x128 : S1x128.Broadcasts S2048x128
  slices_S2048x2048_o0_128_S2048x128 : S2048x2048.Slices ![0, 128] S2048x128
  slices_S1x2048_o0_128_S1x128 : S1x2048.Slices ![0, 128] S1x128
  slices_S2048x2048_o0_256_S2048x128 : S2048x2048.Slices ![0, 256] S2048x128
  slices_S1x2048_o0_256_S1x128 : S1x2048.Slices ![0, 256] S1x128
  slices_S2048x2048_o0_384_S2048x128 : S2048x2048.Slices ![0, 384] S2048x128
  slices_S1x2048_o0_384_S1x128 : S1x2048.Slices ![0, 384] S1x128
  slices_S2048x2048_o0_512_S2048x128 : S2048x2048.Slices ![0, 512] S2048x128
  slices_S1x2048_o0_512_S1x128 : S1x2048.Slices ![0, 512] S1x128
  slices_S2048x2048_o0_640_S2048x128 : S2048x2048.Slices ![0, 640] S2048x128
  slices_S1x2048_o0_640_S1x128 : S1x2048.Slices ![0, 640] S1x128
  slices_S2048x2048_o0_768_S2048x128 : S2048x2048.Slices ![0, 768] S2048x128
  slices_S1x2048_o0_768_S1x128 : S1x2048.Slices ![0, 768] S1x128
  slices_S2048x2048_o0_896_S2048x128 : S2048x2048.Slices ![0, 896] S2048x128
  slices_S1x2048_o0_896_S1x128 : S1x2048.Slices ![0, 896] S1x128
  slices_S2048x2048_o0_1024_S2048x128 : S2048x2048.Slices ![0, 1024] S2048x128
  slices_S1x2048_o0_1024_S1x128 : S1x2048.Slices ![0, 1024] S1x128
  slices_S2048x2048_o0_1152_S2048x128 : S2048x2048.Slices ![0, 1152] S2048x128
  slices_S1x2048_o0_1152_S1x128 : S1x2048.Slices ![0, 1152] S1x128
  slices_S2048x2048_o0_1280_S2048x128 : S2048x2048.Slices ![0, 1280] S2048x128
  slices_S1x2048_o0_1280_S1x128 : S1x2048.Slices ![0, 1280] S1x128
  slices_S2048x2048_o0_1408_S2048x128 : S2048x2048.Slices ![0, 1408] S2048x128
  slices_S1x2048_o0_1408_S1x128 : S1x2048.Slices ![0, 1408] S1x128
  slices_S2048x2048_o0_1536_S2048x128 : S2048x2048.Slices ![0, 1536] S2048x128
  slices_S1x2048_o0_1536_S1x128 : S1x2048.Slices ![0, 1536] S1x128
  slices_S2048x2048_o0_1664_S2048x128 : S2048x2048.Slices ![0, 1664] S2048x128
  slices_S1x2048_o0_1664_S1x128 : S1x2048.Slices ![0, 1664] S1x128
  slices_S2048x2048_o0_1792_S2048x128 : S2048x2048.Slices ![0, 1792] S2048x128
  slices_S1x2048_o0_1792_S1x128 : S1x2048.Slices ![0, 1792] S1x128
  slices_S2048x2048_o0_1920_S2048x128 : S2048x2048.Slices ![0, 1920] S2048x128
  slices_S1x2048_o0_1920_S1x128 : S1x2048.Slices ![0, 1920] S1x128
  reduces_S2048x128_S2048 : S2048x128.Reduces [1] S2048
  shapeCasts_S2048_S2048x1 : S2048.ShapeCasts S2048x1
  shapeCasts_S16384x1_S16384 : S16384x1.ShapeCasts S16384
  shapeCasts_S1_S_ : S1.ShapeCasts S_
  bcast_S_S16384 : S_.BroadcastsInDim S16384 (![] : Fin 0 → Fin S16384.rank)
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S16384x1.size a
  hwx0_5 : ∀ i : grid0.Coords, EltTy.bits .f32 = 32 ∨ (Rect.block (s := S16384x1) S2048x1.size (cc0_transform_5 i) (hinb0_5 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x512 : Shape := ⟨2, ![16384, 512]⟩
abbrev S8192x512 : Shape := ⟨2, ![8192, 512]⟩
abbrev S1x8192 : Shape := ⟨2, ![1, 8192]⟩
abbrev S1 : Shape := ⟨1, ![1]⟩
abbrev S_ : Shape := ⟨0, ![]⟩
abbrev S16384 : Shape := ⟨1, ![16384]⟩
abbrev S16384x1 : Shape := ⟨2, ![16384, 1]⟩
abbrev S8192 : Shape := ⟨1, ![8192]⟩
abbrev S16384x8192 : Shape := ⟨2, ![16384, 8192]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8192x512, .f32⟩
  | .hbm, ⟨2, _⟩ => ⟨S1x8192, .f32⟩
  | .hbm, ⟨3, _⟩ => ⟨S1, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S16384x1, .f32⟩
  | .hbm, ⟨28, _⟩ => ⟨S1x1, .f32⟩
  | .hbm, ⟨29, _⟩ => ⟨S16384x1, .f32⟩
  | .hbm, ⟨30, _⟩ => ⟨S16384x1, .f32⟩
  | .hbm, ⟨31, _⟩ => ⟨S16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S8192x512_S8192_d1 : S8192x512.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x512_S8192x512_S16384x8192_1_1_0_0_n_n_wf : DotDims.WF S16384x512 S8192x512 S16384x8192 [1] [1] [0] [0] [] []
  dot_S16384x8192_S1x8192_S16384x1_1_1_0_0_n_n_wf : DotDims.WF S16384x8192 S1x8192 S16384x1 [1] [1] [0] [0] [] []

variable [Facts₀]

def dot_S16384x512_S8192x512_S16384x8192_1_1_0_0_n_n : DotDims S16384x512 S8192x512 S16384x8192 where
  lhsContracting := [1]
  rhsContracting := [1]
  lhsNonContracting := [0]
  rhsNonContracting := [0]
  lhsBatch := []
  rhsBatch := []
  wf := dot_S16384x512_S8192x512_S16384x8192_1_1_0_0_n_n_wf
def dot_S16384x8192_S1x8192_S16384x1_1_1_0_0_n_n : DotDims S16384x8192 S1x8192 S16384x1 where
  lhsContracting := [1]
  rhsContracting := [1]
  lhsNonContracting := [0]
  rhsNonContracting := [0]
  lhsBatch := []
  rhsBatch := []
  wf := dot_S16384x8192_S1x8192_S16384x1_1_1_0_0_n_n_wf

class Facts : Prop extends Facts₀ where

variable [Facts]
-- ==== Proof.GramProjection.lean ====
/-
  The mathematics of this unit, stated once and free of any program.

  A Gaussian Gram matrix between the rows of `X` (16384 × 512) and of `Y` (8192 × 512),
      K[n, m] = exp (c · max ((|xₙ|² + |yₘ|²) − 2 · ⟨xₙ, yₘ⟩, 0)),
  is projected on one weight row and shifted by a bias:
      result[n] = Σₘ K[n, m] · W[0, m] + b[0].
  The row norms |xₙ|², |yₘ|² enter as two given vectors (both programs compute them by the same host
  reduction, so nothing here looks inside them); `c`, `2` and `0` are the binary values of the words both
  programs carry.

  One program adds the 8192 products of a row in order; the other walks the columns in four blocks of
  2048, inside a block adds sixteen groups of 128 lanes into a 128-lane partial sum that starts at zero,
  adds the partial sums of the four blocks lane by lane into an accumulator that starts at zero, and at
  the end adds the 128 lanes.  Over a commutative monoid the two are the same sum: only associativity,
  commutativity and `0 + x = x` are used, so the statement holds on the extended reals with no
  finiteness assumption.
-/
import Idealize.ShloMosaic.PureOps.Ideal
import Idealize.ShloMosaic.Lib.ValueIdx
import Mathlib.Algebra.BigOperators.Intervals
import Mathlib.Algebra.BigOperators.Fin

noncomputable section

open scoped BigOperators

namespace Cert.GramProjection

open Idealize.ShloMosaic Idealize.ShloMosaic.ValueIdx

/-! ## Regrouping a finite sum -/

section Regroup

variable {M : Type*} [AddCommMonoid M]

/-- A sum over `a · b` consecutive naturals is the sum over `a` consecutive blocks of length `b`. -/
theorem sum_range_blocks (f : ℕ → M) (a b : ℕ) :
    ∑ k ∈ Finset.range (a * b), f k = ∑ j ∈ Finset.range a, ∑ q ∈ Finset.range b, f (b * j + q) := by
  induction a with
  | zero => simp
  | succ a ih =>
    rw [add_one_mul, Finset.sum_range_add, ih, Finset.sum_range_succ, Nat.mul_comm a b]

/-- The 128-lane partial sum of one block of 2048 columns: sixteen lane groups added, in order, to zero.
    `T` is the block's row of products, read at its column. -/
def lanePartial (T : ℕ → M) (l : ℕ) : M :=
  0 + T (0 + l) + T (128 + l) + T (256 + l) + T (384 + l) + T (512 + l) + T (640 + l) + T (768 + l) + T (896 + l)
    + T (1024 + l) + T (1152 + l) + T (1280 + l) + T (1408 + l) + T (1536 + l) + T (1664 + l) + T (1792 + l)
    + T (1920 + l)

theorem lanePartial_eq_sum (T : ℕ → M) (l : ℕ) :
    lanePartial T l = ∑ g ∈ Finset.range 16, T (128 * g + l) := by
  simp only [lanePartial, Finset.sum_range_succ, Finset.sum_range_zero, Nat.mul_zero, Nat.mul_one, Nat.reduceMul]

/-- The accumulator after the four column blocks, at lane `l`: the blocks' partial sums added, in order, to
    zero. `T` is the whole row of 8192 products. -/
def laneTotal (T : ℕ → M) (l : ℕ) : M :=
  0 + lanePartial (fun q => T (2048 * 0 + q)) l + lanePartial (fun q => T (2048 * 1 + q)) l
    + lanePartial (fun q => T (2048 * 2 + q)) l + lanePartial (fun q => T (2048 * 3 + q)) l

theorem laneTotal_eq_sum (T : ℕ → M) (l : ℕ) :
    laneTotal T l = ∑ j ∈ Finset.range 4, ∑ g ∈ Finset.range 16, T (2048 * j + (128 * g + l)) := by
  simp only [laneTotal, lanePartial_eq_sum, Finset.sum_range_succ (n := 0), Finset.sum_range_succ (n := 1),
    Finset.sum_range_succ (n := 2), Finset.sum_range_succ (n := 3), Finset.sum_range_zero]

/-- The accumulator after column block `j` of a row, at lane `l`: blocks `0 … j`'s partial sums added, in
    order, to zero. -/
def accUpTo (T : ℕ → M) : ℕ → ℕ → M
  | 0, l => 0 + lanePartial (fun q => T (2048 * 0 + q)) l
  | j + 1, l => accUpTo T j l + lanePartial (fun q => T (2048 * (j + 1) + q)) l

theorem accUpTo_three (T : ℕ → M) (l : ℕ) : accUpTo T 3 l = laneTotal T l := rfl

/-- A lane's partial sum reads the block's products only below column 2048. -/
theorem lanePartial_congr {T T' : ℕ → M} {l : ℕ} (hl : l < 128) (h : ∀ k, k < 2048 → T k = T' k) :
    lanePartial T l = lanePartial T' l := by
  unfold lanePartial
  rw [h (0 + l) (by omega), h (128 + l) (by omega), h (256 + l) (by omega), h (384 + l) (by omega), h (512 + l) (by omega), h (640 + l) (by omega), h (768 + l) (by omega), h (896 + l) (by omega), h (1024 + l) (by omega), h (1152 + l) (by omega), h (1280 + l) (by omega), h (1408 + l) (by omega), h (1536 + l) (by omega), h (1664 + l) (by omega), h (1792 + l) (by omega), h (1920 + l) (by omega)]

/-- THE LAW: the 128 lanes of the accumulator add up to the row's 8192 products. -/
theorem sum_laneTotal (T : ℕ → M) :
    ∑ l ∈ Finset.range 128, laneTotal T l = ∑ k ∈ Finset.range 8192, T k := by
  simp only [laneTotal_eq_sum]
  rw [show (8192 : ℕ) = 4 * 2048 from rfl, sum_range_blocks T 4 2048, Finset.sum_comm]
  refine Finset.sum_congr rfl fun j _ => ?_
  rw [show (2048 : ℕ) = 16 * 128 from rfl, sum_range_blocks (fun q => T (16 * 128 * j + q)) 16 128, Finset.sum_comm]

end Regroup

/-! ## The specification -/

/-- An entry of a matrix read at natural-number coordinates (zero outside its extent): sums over ranges of
    naturals then carry no bound proofs. -/
def at2 {N K : ℕ} (A : (⟨2, ![N, K]⟩ : Shape).Idx → EReal) (n k : ℕ) : EReal :=
  if h : n < N ∧ k < K then A (ix2 ⟨n, h.1⟩ ⟨k, h.2⟩) else 0

theorem at2_of_lt {N K : ℕ} (A : (⟨2, ![N, K]⟩ : Shape).Idx → EReal) (n : Fin N) (k : Fin K) :
    at2 A n.val k.val = A (ix2 n k) := by
  unfold at2; rw [dif_pos ⟨n.isLt, k.isLt⟩]

/-- The Gram entry from the two squared norms `a`, `b` and the inner product `d`. -/
def gram (a b d : EReal) : EReal :=
  Ideal.exp (Ideal.ofBits .f32 0xBB03126F#32
    * max ((a + b) - Ideal.ofBits .f32 0x40000000#32 * d) (Ideal.ofBits .f32 0x00000000#32))

/-- ⟨xₙ, yₘ⟩. -/
def inner (X : (⟨2, ![16384, 512]⟩ : Shape).Idx → EReal) (Y : (⟨2, ![8192, 512]⟩ : Shape).Idx → EReal)
    (n : Fin 16384) (m : Fin 8192) : EReal :=
  ∑ d : Fin 512, X (ix2 n d) * Y (ix2 m d)

/-- K[n, m] · W[0, m]. -/
def term (x2 : (⟨1, ![16384]⟩ : Shape).Idx → EReal) (y2 : (⟨1, ![8192]⟩ : Shape).Idx → EReal)
    (X : (⟨2, ![16384, 512]⟩ : Shape).Idx → EReal) (Y : (⟨2, ![8192, 512]⟩ : Shape).Idx → EReal)
    (W : (⟨2, ![1, 8192]⟩ : Shape).Idx → EReal) (n : Fin 16384) (m : Fin 8192) : EReal :=
  gram (x2 (ix1 n)) (y2 (ix1 m)) (inner X Y n m) * W (ix2 0 m)

/-- The same read at a natural-number column (zero past the last column). -/
def termN (x2 : (⟨1, ![16384]⟩ : Shape).Idx → EReal) (y2 : (⟨1, ![8192]⟩ : Shape).Idx → EReal)
    (X : (⟨2, ![16384, 512]⟩ : Shape).Idx → EReal) (Y : (⟨2, ![8192, 512]⟩ : Shape).Idx → EReal)
    (W : (⟨2, ![1, 8192]⟩ : Shape).Idx → EReal) (n : Fin 16384) (k : ℕ) : EReal :=
  if h : k < 8192 then term x2 y2 X Y W n ⟨k, h⟩ else 0

/-- THE RESULT: result[n] = Σₘ K[n, m] · W[0, m] + b[0]. -/
def result (x2 : (⟨1, ![16384]⟩ : Shape).Idx → EReal) (y2 : (⟨1, ![8192]⟩ : Shape).Idx → EReal)
    (X : (⟨2, ![16384, 512]⟩ : Shape).Idx → EReal) (Y : (⟨2, ![8192, 512]⟩ : Shape).Idx → EReal)
    (W : (⟨2, ![1, 8192]⟩ : Shape).Idx → EReal) (b : (⟨1, ![1]⟩ : Shape).Idx → EReal) :
    (⟨1, ![16384]⟩ : Shape).Idx → EReal :=
  fun i => (∑ m : Fin 8192, term x2 y2 X Y W (i 0) m) + b (ix1 0)

/-- The row's sum over the columns, as a sum over a range of naturals. -/
theorem sum_term_eq_range (x2 : (⟨1, ![16384]⟩ : Shape).Idx → EReal) (y2 : (⟨1, ![8192]⟩ : Shape).Idx → EReal)
    (X : (⟨2, ![16384, 512]⟩ : Shape).Idx → EReal) (Y : (⟨2, ![8192, 512]⟩ : Shape).Idx → EReal)
    (W : (⟨2, ![1, 8192]⟩ : Shape).Idx → EReal) (n : Fin 16384) :
    ∑ m : Fin 8192, term x2 y2 X Y W n m = ∑ k ∈ Finset.range 8192, termN x2 y2 X Y W n k := by
  rw [← Fin.sum_univ_eq_sum_range (fun k => termN x2 y2 X Y W n k) 8192]
  exact Finset.sum_congr rfl fun m _ => by unfold termN; rw [dif_pos m.isLt]

/-- What the blocked, lane-wise accumulation adds up to is the row's sum. -/
theorem sum_lanes_eq (x2 : (⟨1, ![16384]⟩ : Shape).Idx → EReal) (y2 : (⟨1, ![8192]⟩ : Shape).Idx → EReal)
    (X : (⟨2, ![16384, 512]⟩ : Shape).Idx → EReal) (Y : (⟨2, ![8192, 512]⟩ : Shape).Idx → EReal)
    (W : (⟨2, ![1, 8192]⟩ : Shape).Idx → EReal) (n : Fin 16384) :
    ∑ l : Fin 128, laneTotal (termN x2 y2 X Y W n) l.val = ∑ m : Fin 8192, term x2 y2 X Y W n m := by
  rw [sum_term_eq_range, Fin.sum_univ_eq_sum_range (fun l => laneTotal (termN x2 y2 X Y W n) l) 128, sum_laneTotal]

end Cert.GramProjection

end
-- ==== Proof.ReferenceResult.lean ====
/-
  The reference program computes the specification's result.

  Its last stage, read one operation at a time at an index `i` (row `n = i 0`), is
      Σₖ exp (c · max ((|xₙ|² + |yₖ|²) − 2 · Σ_d X[n,d] · Y[k,d], 0)) · W[0,k]  +  b[0]
  with the two squared norms the stages that the host reduction writes: exactly `GramProjection.result` of
  those two vectors.  Only the index maps composed along the way have to be identified with the row, the
  column and the feature coordinate; no arithmetic on the extended reals is involved.
-/
import proofs.«429122_j65481071407811_3_alg».proof.Proof.Gen.ReferenceIdeal.Read
import proofs.«429122_j65481071407811_3_alg».proof.Proof.GramProjection

noncomputable section

namespace Cert.ReferenceIdeal.RefValue

open Cert.ReferenceIdeal Cert.ReferenceIdeal.Gen Cert.ReferenceIdeal.Read
open Idealize.ShloMosaic Idealize.ShloMosaic.ValueIdx Cert.GramProjection

/-- The row an index of the result names. -/
abbrev rowOf (i : S16384.Idx) : Fin 16384 := i 0

/-- The reshape [16384, 1] → [16384] reads row `n` at (n, 0). -/
theorem idx_row (i : S16384.Idx) :
    idx_main_v22 i = (ix2 (rowOf i) (0 : Fin 1) : S16384x1.Idx) :=
  funext fun a => Fin.ext (by
    match a with
    | ⟨0, _⟩ => exact Nat.div_one _
    | ⟨1, _⟩ => rfl)

/-- The reference's result is the specification's, of the squared-norm vectors its own reductions write. -/
theorem ref_eq_result (X : FVec Ideal S16384x512 .f32) (Y : FVec Ideal S8192x512 .f32)
    (W : FVec Ideal S1x8192 .f32) (b : FVec Ideal S1 .f32) :
    val_main_v22 (F := Ideal) X Y W b
      = result (val_main_v1 (F := Ideal) X) (val_main_v4 (F := Ideal) Y) X Y W b := by
  funext i
  rw [val_main_v22_apply, idx_row, val_main_v21_apply, val_main_v18_apply, val_main_v20_apply, val_main_v19_apply]
  show (∑ k : Fin 8192, _) + _ = (∑ m : Fin 8192, _) + _
  refine congrArg₂ (· + ·) (Finset.sum_congr rfl fun k _ => ?_)
    (congrArg b (funext fun a => by match a with | ⟨0, _⟩ => rfl))
  rw [val_main_v17_apply, val_main_v16_apply, val_main_v15_apply, val_main_cst_3_apply, val_main_v14_apply,
    val_main_v12_apply, val_main_v13_apply, val_main_cst_2_apply, val_main_v9_apply, val_main_v11_apply,
    val_main_v10_apply, val_main_cst_1_apply, val_main_v6_apply, val_main_v7_apply, val_main_v8_apply,
    val_main_v2_apply, val_main_v5_apply]
  have e1 : idx_main_v2 (idx_main_v7 (lidx_main_v18 (ix2 (rowOf i) (0 : Fin 1) : S16384x1.Idx) k))
      = (ix1 (rowOf i) : S16384.Idx) :=
    funext fun a => Fin.ext (by match a with | ⟨0, _⟩ => rfl)
  have e2 : idx_main_v5 (idx_main_v8 (lidx_main_v18 (ix2 (rowOf i) (0 : Fin 1) : S16384x1.Idx) k))
      = (ix1 k : S8192.Idx) :=
    funext fun a => Fin.ext (by match a with | ⟨0, _⟩ => rfl)
  have e3 : ∀ d : Fin 512, lidx_main_v6 (lidx_main_v18 (ix2 (rowOf i) (0 : Fin 1) : S16384x1.Idx) k) d
      = (ix2 (rowOf i) d : S16384x512.Idx) :=
    fun d => funext fun a => Fin.ext (by match a with | ⟨0, _⟩ => rfl | ⟨1, _⟩ => rfl)
  have e4 : ∀ d : Fin 512, ridx_main_v6 (lidx_main_v18 (ix2 (rowOf i) (0 : Fin 1) : S16384x1.Idx) k) d
      = (ix2 k d : S8192x512.Idx) :=
    fun d => funext fun a => Fin.ext (by match a with | ⟨0, _⟩ => rfl | ⟨1, _⟩ => rfl)
  have e5 : ridx_main_v18 (ix2 (rowOf i) (0 : Fin 1) : S16384x1.Idx) k
      = (ix2 (0 : Fin 1) k : S1x8192.Idx) :=
    funext fun a => Fin.ext (by match a with | ⟨0, _⟩ => rfl | ⟨1, _⟩ => rfl)
  simp only [e1, e2, e3, e4, e5]
  unfold term gram GramProjection.inner
  simp only [Ideal.hostUnary_exp_def, Ideal.mulf_def, Ideal.ofBits_def, Ideal.maximumf_def, Ideal.subf_def, Ideal.addf_def]

end Cert.ReferenceIdeal.RefValue

end
-- ==== Proof.AccumulatorCases.lean ====
/-
  What one grid point leaves behind, case by case, as pure functions of the blocks it loads.

  The body, at column block `j` of row block `i`, forms the block's 2048 × 2048 Gram entries from the
  loaded blocks, multiplies them by the weights, folds the sixteen lane groups into a 2048 × 128 partial
  sum, and adds that to a 2048 × 128 accumulator it carries from point to point:
    • at the first column block (case A) the accumulator is first reset to zero, so it ends at
      `0 + partial`;
    • at the middle blocks (case B) it ends at `previous + partial`;
    • at the last block (case C) likewise, and the output block is then the lane sum of the fresh
      accumulator.
  `step` is that one update as a function of the five loaded blocks and the accumulator's previous contents;
  the three cases differ only in what the previous contents are.
-/
import proofs.«429122_j65481071407811_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.AccValue

open Cert.KernelIdeal Cert.KernelIdeal.Gen

variable {F : FTy → Type} [FloatOps F]

theorem hz : (![0, 0] : Fin 2 → Nat) = fun _ => 0 := funext fun a => by fin_cases a <;> rfl

/-- One update of the accumulator: `acc + partial`, the partial sum of the block's weighted Gram entries
    over its sixteen lane groups (the first three groups, the next twelve and the last one are the body's
    three stretches of that chain). Blocks in window order: the `X` rows, the `Y` rows, the weights, the
    rows' squared norms, the columns' squared norms. -/
abbrev step (x0 : Vec F S2048x512 .bf16) (x1 : Vec F S2048x512 .bf16) (x2 : Vec F S1x2048 .f32)
    (x3 : Vec F S2048x1 .f32) (x4 : Vec F S1x2048 .f32) (acc : Vec F S2048x128 .f32) : FVec F S2048x128 .f32 :=
  k0_pay1 x2 (k0_pay4 x0 x1 x3 x4) (k0_pay6 x2 (k0_pay4 x0 x1 x3 x4) (k0_pay5 x0 x1 x3 x4 x2)) acc

/-- CASE B: the accumulator holding `xs0` ends at `xs0 + partial`. -/
theorem acc_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : ¬cond0_1 i)
    (x0 : Vec F S2048x512 .bf16) (x1 : Vec F S2048x512 .bf16) (x2 : Vec F S1x2048 .f32) (x3 : Vec F S2048x1 .f32) (x4 : Vec F S1x2048 .f32) (xs0 : Vec F S2048x128 .f32) :
    sout0_B_0 c i arg2 harg2 arg3 harg3 arg4 harg4 arg5 harg5 arg6 harg6 arg7 harg7 arg8 harg8 hc0 hc1 x0 x1 x2 x3 x4 xs0 = step x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread,
    harg6.read_unread, harg8.read_unread, View.ld_unit_zero (S := S2048x512) hz, View.ld_unit_zero (S := S1x2048) hz,
    View.ld_unit_zero (S := S2048x1) hz, View.ld_unit_zero (S := S2048x128) hz]

/-- CASE C: the same update of the accumulator. -/
theorem acc_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x512 .bf16) (x1 : Vec F S2048x512 .bf16) (x2 : Vec F S1x2048 .f32) (x3 : Vec F S2048x1 .f32) (x4 : Vec F S1x2048 .f32) (xs0 : Vec F S2048x128 .f32) :
    sout0_C_0 c i arg2 harg2 arg3 harg3 arg4 harg4 arg5 harg5 arg6 harg6 arg7 harg7 arg8 harg8 hc0 hc1 x0 x1 x2 x3 x4 xs0 = step x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.ld_unit_zero (S := S2048x512) hz, View.ld_unit_zero (S := S1x2048) hz,
    View.ld_unit_zero (S := S2048x1) hz, View.ld_unit_zero (S := S2048x128) hz]

/-- CASE C, the output block: the lane sum of the accumulator the point has just updated. -/
theorem out_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x512 .bf16) (x1 : Vec F S2048x512 .bf16) (x2 : Vec F S1x2048 .f32) (x3 : Vec F S2048x1 .f32) (x4 : Vec F S1x2048 .f32) (xs0 : Vec F S2048x128 .f32) :
    out0_C_5 c i arg2 harg2 arg3 harg3 arg4 harg4 arg5 harg5 arg6 harg6 arg7 harg7 arg8 harg8 hc0 hc1 x0 x1 x2 x3 x4 xs0 = k0_pay2 (step x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.readCov_unit_zero (S := S2048x128) _ hz,
    View.ld_unit_zero (S := S2048x512) hz, View.ld_unit_zero (S := S1x2048) hz,
    View.ld_unit_zero (S := S2048x1) hz, View.ld_unit_zero (S := S2048x128) hz]

/-- CASE A: the accumulator is reset to the zero block and then updated: `0 + partial`. -/
theorem acc_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S2048x1 .f32) (harg5 : arg5.IsWhole) (arg6 : Memref sig .tc .vmem S1x2048 .f32) (harg6 : arg6.IsWhole) (arg7 : Memref sig .tc .vmem S2048x1 .f32) (harg7 : arg7.IsWhole) (arg8 : Memref sig .tc .vmem S2048x128 .f32) (harg8 : arg8.IsWhole) (hc0 : cond0_0 i) (hc1 : ¬cond0_1 i)
    (x0 : Vec F S2048x512 .bf16) (x1 : Vec F S2048x512 .bf16) (x2 : Vec F S1x2048 .f32) (x3 : Vec F S2048x1 .f32) (x4 : Vec F S1x2048 .f32) :
    sout0_A_0 c i arg2 harg2 arg3 harg3 arg4 harg4 arg5 harg5 arg6 harg6 arg7 harg7 arg8 harg8 hc0 hc1 x0 x1 x2 x3 x4 = step x0 x1 x2 x3 x4 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread,
    harg6.read_unread, View.ld_unit_zero (S := S2048x512) hz, View.ld_unit_zero (S := S1x2048) hz,
    View.ld_unit_zero (S := S2048x1) hz, View.ld_unit_zero (S := S2048x128) hz]

end Cert.KernelIdeal.AccValue

end
-- ==== Proof.PointContents.lean ====
/-
  What the carried accumulator and the output block hold after each grid point.

  The grid is 8 row blocks × 4 column blocks, walked row block by row block; point `t` is column block
  `t mod 4` of row block `t / 4`.  After a point the accumulator is one `step` of that point's five loaded
  blocks — from the zero block at a row block's first point, from what the point before left otherwise —
  and at a row block's last point the output block is the lane sum of the accumulator just written.
-/
import proofs.«429122_j65481071407811_3_alg».proof.Proof.AccumulatorCases

noncomputable section

open Idealize.ShloMosaic Idealize.ShloMosaic.TcCoe Idealize.SL.Sem

namespace Cert.KernelIdeal.AccValue

open Cert.KernelIdeal Cert.KernelIdeal.Gen

variable {F : FTy → Type} [FloatOps F]
variable (m : (ℓ : Loc nD τ sig) → Buf (Elt F) ℓ)

/-- The five blocks point `t` loads, at their literal types: 2048 rows of `X`, 2048 rows of `Y`, 2048
    weights, the rows' squared norms, the columns' squared norms. -/
abbrev blkX (c : Dev nD) (t : Fin cfg0.N) : Vec F S2048x512 .bf16 := iblk m c 0 t
abbrev blkY (c : Dev nD) (t : Fin cfg0.N) : Vec F S2048x512 .bf16 := iblk m c 1 t
abbrev blkW (c : Dev nD) (t : Fin cfg0.N) : Vec F S1x2048 .f32 := iblk m c 2 t
abbrev blkXX (c : Dev nD) (t : Fin cfg0.N) : Vec F S2048x1 .f32 := iblk m c 3 t
abbrev blkYY (c : Dev nD) (t : Fin cfg0.N) : Vec F S1x2048 .f32 := iblk m c 4 t

/-- The accumulator after point `n`. -/
abbrev accAt (c : Dev nD) (n : ℕ) (h : n < cfg0.N) : Vec F S2048x128 .f32 := (outsAt0 m c n h).2

/-- The output block's staging contents after point `n`. -/
abbrev outAt (c : Dev nD) (n : ℕ) (h : n < cfg0.N) : Vec F S2048x1 .f32 := (outsAt0 m c n h).1

/-- At a row block's first point the accumulator restarts from the zero block. -/
theorem accAt_first (c : Dev nD) (t : Fin cfg0.N) (h0 : t.val % 4 = 0) :
    accAt m c t.val t.isLt = step (blkX m c t) (blkY m c t) (blkW m c t) (blkXX m c t) (blkYY m c t) k0_pay3 := by
  have h1 : ¬t.val % 4 = 3 := by omega
  show (outsAt0 m c t.val t.isLt).2 = _
  rw [outsAt0_A m c t h0 h1]
  dsimp only
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At every other point it continues from what the point before left. -/
theorem accAt_next (c : Dev nD) (t : Fin cfg0.N) (h0 : ¬t.val % 4 = 0) :
    accAt m c t.val t.isLt = step (blkX m c t) (blkY m c t) (blkW m c t) (blkXX m c t) (blkYY m c t)
      (accAt m c (t.val - 1) (Nat.lt_of_le_of_lt (Nat.sub_le _ _) t.isLt)) := by
  show (outsAt0 m c t.val t.isLt).2 = _
  by_cases h1 : t.val % 4 = 3
  · rw [outsAt0_C m c t h0 h1]
    dsimp only
    exact acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At a row block's last point the output block is the lane sum of the accumulator just written. -/
theorem outAt_last (c : Dev nD) (t : Fin cfg0.N) (h1 : t.val % 4 = 3) :
    outAt m c t.val t.isLt = k0_pay2 (accAt m c t.val t.isLt) := by
  have h0 : ¬t.val % 4 = 0 := by omega
  show (outsAt0 m c t.val t.isLt).1 = k0_pay2 (outsAt0 m c t.val t.isLt).2
  rw [outsAt0_C m c t h0 h1]
  dsimp only
  exact (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (congrArg k0_pay2 (acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm)

end Cert.KernelIdeal.AccValue

end
-- ==== Proof.BlockArithmetic.lean ====
/-
  The body's arithmetic read at an index, over the extended reals.

  For loaded blocks `x0` (2048 rows of `X`), `x1` (2048 rows of `Y`), `x2` (2048 weights), `x3` (the rows'
  squared norms, a column) and `x4` (the columns' squared norms, a row):
    • entry (r, q) of the Gram block is `gram x3[r] x4[q] (Σ_d x0[r,d] · x1[q,d])` — the matrix product into a
      zero accumulator is the plain sum over the 512 features, the two norms are broadcast along the other
      axis;
    • one update of the accumulator, at row r and lane l, adds to the previous entry the sixteen products
      K[r, 128·g + l] · x2[128·g + l], folded from zero in order of g (`GramProjection.lanePartial`);
    • the output column at row r is the sum of the accumulator's 128 lanes.
-/
import proofs.«429122_j65481071407811_3_alg».proof.Proof.Gen.KernelIdeal.Skeleton
import proofs.«429122_j65481071407811_3_alg».proof.Proof.GramProjection
import Idealize.ShloMosaic.PureOps.Ideal.Laws
import Idealize.ShloMosaic.Lib.ValueIdx
import Idealize.ShloMosaic.Lib.Pipeline.Value

noncomputable section

open scoped BigOperators

namespace Cert.KernelIdeal.BlockValue

open Cert.KernelIdeal Cert.KernelIdeal.Gen
open Idealize.ShloMosaic Idealize.ShloMosaic.ValueIdx Cert.GramProjection

/-! ## Layout operations of the body, read at (row, column) -/

/-- A column [2048, 1] broadcast along 2048 columns. -/
theorem bcast_col {α : Type} (v : S2048x1.Idx → α) (h : S2048x1.Broadcasts S2048x2048) (r q : Fin 2048) :
    broadcastTo S2048x2048 v h (ix2 r q) = v (ix2 r (0 : Fin 1)) :=
  broadcastTo_apply v h (ix2 r q) (ix2 r (0 : Fin 1)) (fun a => by
    match a with
    | ⟨0, _⟩ => show r.val = if (2048 : Nat) = 1 then 0 else r.val; rw [if_neg (by decide)]
    | ⟨1, _⟩ => show 0 = if (1 : Nat) = 1 then 0 else q.val; rw [if_pos rfl])

/-- A row [1, 2048] broadcast along 2048 rows. -/
theorem bcast_row {α : Type} (v : S1x2048.Idx → α) (h : S1x2048.Broadcasts S2048x2048) (r q : Fin 2048) :
    broadcastTo S2048x2048 v h (ix2 r q) = v (ix2 (0 : Fin 1) q) :=
  broadcastTo_apply v h (ix2 r q) (ix2 (0 : Fin 1) q) (fun a => by
    match a with
    | ⟨0, _⟩ => show 0 = if (1 : Nat) = 1 then 0 else r.val; rw [if_pos rfl]
    | ⟨1, _⟩ => show q.val = if (2048 : Nat) = 1 then 0 else q.val; rw [if_neg (by decide)])

/-- A lane row [1, 128] broadcast along 2048 rows. -/
theorem bcast_lanes {α : Type} (v : S1x128.Idx → α) (h : S1x128.Broadcasts S2048x128) (r : Fin 2048) (l : Fin 128) :
    broadcastTo S2048x128 v h (ix2 r l) = v (ix2 (0 : Fin 1) l) :=
  broadcastTo_apply v h (ix2 r l) (ix2 (0 : Fin 1) l) (fun a => by
    match a with
    | ⟨0, _⟩ => show 0 = if (1 : Nat) = 1 then 0 else r.val; rw [if_pos rfl]
    | ⟨1, _⟩ => show l.val = if (128 : Nat) = 1 then 0 else l.val; rw [if_neg (by decide)])

/-- Lane group `o … o + 127` of the Gram block, at (r, l): its entry at column `o + l`. -/
theorem slice_block (K : FVec Ideal S2048x2048 .f32) (o : Nat) (h : S2048x2048.Slices ![0, o] S2048x128)
    (r : Fin 2048) (l : Fin 128) :
    extractStridedSlice S2048x128 ![0, o] K h (ix2 r l) = at2 K r.val (o + l.val) := by
  have ho : o + 128 ≤ 2048 := h.2 1
  have hl := l.isLt
  unfold at2
  rw [dif_pos ⟨r.isLt, by omega⟩]
  exact extractStridedSlice_apply _ K h _ _ (fun a => by
    match a with
    | ⟨0, _⟩ => exact (Nat.zero_add _).symm
    | ⟨1, _⟩ => rfl)

/-- The same lane group of the weights, broadcast along the rows, at (r, l): the weight of column `o + l`. -/
theorem slice_weights (w : FVec Ideal S1x2048 .f32) (o : Nat) (h : S1x2048.Slices ![0, o] S1x128)
    (h' : S1x128.Broadcasts S2048x128) (r : Fin 2048) (l : Fin 128) :
    broadcastTo S2048x128 (extractStridedSlice S1x128 ![0, o] w h) h' (ix2 r l) = at2 w 0 (o + l.val) := by
  have ho : o + 128 ≤ 2048 := h.2 1
  have hl := l.isLt
  rw [bcast_lanes]
  unfold at2
  rw [dif_pos ⟨Nat.one_pos, by omega⟩]
  exact extractStridedSlice_apply _ w h _ _ (fun a => by
    match a with
    | ⟨0, _⟩ => rfl
    | ⟨1, _⟩ => rfl)

/-! ## The matrix product of the two row blocks -/

theorem lhs_axis0 (i : S2048x2048.Idx) (q : dot_S2048x512_S2048x512_S2048x2048_1_1_0_0_n_n.contr.Idx) :
    (dot_S2048x512_S2048x512_S2048x2048_1_1_0_0_n_n.lhsIdx i q 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
theorem lhs_axis1 (i : S2048x2048.Idx) (q : dot_S2048x512_S2048x512_S2048x2048_1_1_0_0_n_n.contr.Idx) :
    (dot_S2048x512_S2048x512_S2048x2048_1_1_0_0_n_n.lhsIdx i q 1).val = (q ⟨0, by decide⟩).val :=
  dot_S2048x512_S2048x512_S2048x2048_1_1_0_0_n_n.lhsIdx_val_of_single rfl i q
theorem rhs_axis0 (i : S2048x2048.Idx) (q : dot_S2048x512_S2048x512_S2048x2048_1_1_0_0_n_n.contr.Idx) :
    (dot_S2048x512_S2048x512_S2048x2048_1_1_0_0_n_n.rhsIdx i q 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl
theorem rhs_axis1 (i : S2048x2048.Idx) (q : dot_S2048x512_S2048x512_S2048x2048_1_1_0_0_n_n.contr.Idx) :
    (dot_S2048x512_S2048x512_S2048x2048_1_1_0_0_n_n.rhsIdx i q 1).val = (q ⟨0, by decide⟩).val :=
  dot_S2048x512_S2048x512_S2048x2048_1_1_0_0_n_n.rhsIdx_val_of_single rfl i q

/-- Into the zero accumulator the product of the two row blocks is, at (r, q), the inner product of row
    `r` of the first with row `q` of the second. -/
theorem matmul_block (x0 x1 : FVec Ideal S2048x512 .bf16) (r q : Fin 2048) :
    FloatOps.matmul dot_S2048x512_S2048x512_S2048x2048_1_1_0_0_n_n none x0 x1 (constant S2048x2048 .f32 0x00000000#32) (ix2 r q)
      = ∑ d : Fin 512, x0 (ix2 r d) * x1 (ix2 q d) := by
  rw [Ideal.matmul_constant_zero_apply, ← Equiv.sum_comp (ValueIdx.contrEquiv1 dot_S2048x512_S2048x512_S2048x2048_1_1_0_0_n_n 512 rfl rfl).symm]
  refine Finset.sum_congr rfl fun k _ => ?_
  have hk := ValueIdx.contrEquiv1_symm_val dot_S2048x512_S2048x512_S2048x2048_1_1_0_0_n_n 512 rfl rfl k
  have el : dot_S2048x512_S2048x512_S2048x2048_1_1_0_0_n_n.lhsIdx (ix2 r q) ((ValueIdx.contrEquiv1 dot_S2048x512_S2048x512_S2048x2048_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S2048x512_S2048x512_S2048x2048_1_1_0_0_n_n.rhsIdx (ix2 r q) ((ValueIdx.contrEquiv1 dot_S2048x512_S2048x512_S2048x2048_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The three payloads -/

/-- Entry (r, q) of the Gram block. -/
theorem gram_block (x0 x1 : FVec Ideal S2048x512 .bf16) (x3 : FVec Ideal S2048x1 .f32) (x4 : FVec Ideal S1x2048 .f32)
    (r q : Fin 2048) :
    k0_pay4 (F := Ideal) x0 x1 x3 x4 (ix2 r q)
      = gram (x3 (ix2 r (0 : Fin 1))) (x4 (ix2 (0 : Fin 1) q)) (∑ d : Fin 512, x0 (ix2 r d) * x1 (ix2 q d)) := by
  unfold k0_pay4 gram
  simp only [shapeCast_self]
  show Ideal.exp (Ideal.ofBits .f32 0xBB03126F#32
      * max ((broadcastTo S2048x2048 x3 _ (ix2 r q) + broadcastTo S2048x2048 x4 _ (ix2 r q))
          - Ideal.ofBits .f32 0x40000000#32 * FloatOps.matmul dot_S2048x512_S2048x512_S2048x2048_1_1_0_0_n_n none x0 x1 (constant S2048x2048 .f32 0x00000000#32) (ix2 r q))
        (Ideal.ofBits .f32 0x00000000#32)) = _
  rw [bcast_col, bcast_row, matmul_block]

/-- The zero block the reset stores. -/
theorem zero_block (j : S2048x128.Idx) : k0_pay3 (F := Ideal) j = 0 := by
  unfold k0_pay3
  simp only [shapeCast_self]
  exact Ideal.ofBits_zero_f32

/-- One update of the accumulator at (r, l): the previous entry plus the block's sixteen lane-group
    products folded from zero. `K` is the Gram block, `w` the weights. -/
theorem update_apply (w : FVec Ideal S1x2048 .f32) (K : FVec Ideal S2048x2048 .f32) (acc : FVec Ideal S2048x128 .f32)
    (r : Fin 2048) (l : Fin 128) :
    k0_pay1 (F := Ideal) w K (k0_pay6 (F := Ideal) w K
        (addf (addf (addf (broadcast S2048x128 (Scalar.ofBits .f32 0x00000000#32))
          (mulf (extractStridedSlice S2048x128 ![0, 0] K slices_S2048x2048_o0_0_S2048x128) (broadcastTo S2048x128 (extractStridedSlice S1x128 ![0, 0] w slices_S1x2048_o0_0_S1x128) broadcasts_S1x128_S2048x128)))
          (mulf (extractStridedSlice S2048x128 ![0, 128] K slices_S2048x2048_o0_128_S2048x128) (broadcastTo S2048x128 (extractStridedSlice S1x128 ![0, 128] w slices_S1x2048_o0_128_S1x128) broadcasts_S1x128_S2048x128)))
          (mulf (extractStridedSlice S2048x128 ![0, 256] K slices_S2048x2048_o0_256_S2048x128) (broadcastTo S2048x128 (extractStridedSlice S1x128 ![0, 256] w slices_S1x2048_o0_256_S1x128) broadcasts_S1x128_S2048x128)))) acc (ix2 r l)
      = acc (ix2 r l) + lanePartial (fun k => at2 K r.val k * at2 w 0 k) l.val := by
  unfold k0_pay1 k0_pay6 lanePartial
  simp only [shapeCast_self]
  simp only [addf_apply, mulf_apply, broadcast_apply, slice_block, slice_weights]
  rw [show (Scalar.ofBits (F := Ideal) .f32 0x00000000#32 : EReal) = 0 from Ideal.ofBits_zero_f32]

/-- The output column at row r: the sum of the accumulator's 128 lanes. -/
theorem lane_sum (v : FVec Ideal S2048x128 .f32) (r : Fin 2048) :
    k0_pay2 (F := Ideal) v (ix2 r (0 : Fin 1)) = ∑ l : Fin 128, v (ix2 r l) := by
  unfold k0_pay2
  rw [shapeCast_apply _ shapeCasts_S2048_S2048x1 (ix2 r (0 : Fin 1)) (ix1 r)
    (by rewrite [Shape.rowMajor_val_one, Shape.rowMajor_val_two]; show r.val = r.val * 1 + 0; omega)]
  refine (Ideal.multiReduction_add_single v 0x00000000#32 reduces_S2048x128_S2048 (.inl rfl) rfl (ix1 r)).trans ?_
  exact Finset.sum_congr rfl fun l _ => congrArg v (funext fun a => Fin.ext (by
    match a with
    | ⟨0, _⟩ => rfl
    | ⟨1, _⟩ => rfl))

end Cert.KernelIdeal.BlockValue

end
-- ==== Proof.ArrayReads.lean ====
/-
  What the windows' blocks read of the arrays, and what the host operations before the call wrote there.

  Before the call the host squares and row-sums `X` and `Y` (the squared norms; `Y`'s laid out as a row by a
  transpose of a column) and narrows `X` and `Y` to a 16-bit format, which over the extended reals changes
  nothing.  Point `t` — column block `t mod 4` of row block `t / 4` — then loads rows
  `2048·(t/4) + r` of `X` and of the row norms, and rows / columns `2048·(t mod 4) + k` of `Y`, of the column
  norms and of the weights.  So the product the body forms at local (r, k) is the specification's term of
  row `2048·(t/4) + r` and column `2048·(t mod 4) + k`.
-/
import proofs.«429122_j65481071407811_3_alg».proof.Proof.PointContents
import proofs.«429122_j65481071407811_3_alg».proof.Proof.BlockArithmetic
import Idealize.ShloMosaic.Lib.StableHlo.Run
import Idealize.ShloMosaic.Lib.Pipeline.Value

noncomputable section

open scoped BigOperators
open Idealize.ShloMosaic Idealize.ShloMosaic.TcCoe Idealize.SL.Sem

namespace Cert.KernelIdeal.KernelValue

open Cert.KernelIdeal Cert.KernelIdeal.Gen Cert.KernelIdeal.AccValue Cert.KernelIdeal.BlockValue
open Idealize.ShloMosaic.ValueIdx Cert.GramProjection

variable (m : (ℓ : Loc nD τ sig) → Buf (Elt Ideal) ℓ) (c : Dev nD)

/-- The four argument arrays as launched. -/
abbrev argX : FVec Ideal S16384x512 .f32 := m ((c.tc : Thread nD τ).loc main_arg0)
abbrev argY : FVec Ideal S8192x512 .f32 := m ((c.tc : Thread nD τ).loc main_arg1)
abbrev argW : FVec Ideal S1x8192 .f32 := m ((c.tc : Thread nD τ).loc main_arg2)
abbrev argB : FVec Ideal S1 .f32 := m ((c.tc : Thread nD τ).loc main_arg3)

/-- The squared norms of the rows of `X` and of `Y`, as the host reduction writes them. -/
abbrev normsX : FVec Ideal S16384 .f32 :=
  Host.reduceAdd (mulf (argX m c) (argX m c)) (constant S_ .f32 0x00000000#32) reducesTo_S16384x512_S16384_d1 h_S_
abbrev normsY : FVec Ideal S8192 .f32 :=
  Host.reduceAdd (mulf (argY m c) (argY m c)) (constant S_ .f32 0x00000000#32) reducesTo_S8192x512_S8192_d1 h_S_

/-! ## The arrays the call finds -/

theorem narrowX_eq : (V m c main_v7 : S16384x512.Idx → EReal) = argX m c := by
  show StableHlo.after hostOps0 (fun b => m (c, b)) (Proc.devRef .tc main_v7) = _
  after_results
  rfl

theorem narrowY_eq : (V m c main_v8 : S8192x512.Idx → EReal) = argY m c := by
  show StableHlo.after hostOps0 (fun b => m (c, b)) (Proc.devRef .tc main_v8) = _
  after_results
  rfl

theorem colNormsX_eq : (V m c main_v2 : S16384x1.Idx → EReal)
    = broadcastInDim S16384x1 ![0] bcast_S16384_S16384x1_0 (normsX m c) := by
  show StableHlo.after hostOps0 (fun b => m (c, b)) (Proc.devRef .tc main_v2) = _
  after_results

theorem rowNormsY_eq : (V m c main_v6 : S1x8192.Idx → EReal)
    = transpose S1x8192 [1, 0] (broadcastInDim S8192x1 ![0] bcast_S8192_S8192x1_0 (normsY m c)) transposes_S8192x1_S1x8192_1_0 := by
  show StableHlo.after hostOps0 (fun b => m (c, b)) (Proc.devRef .tc main_v6) = _
  after_results

/-- The column of row norms at (n, 0). -/
theorem colNormsX_at (n : Fin 16384) : V m c main_v2 (ix2 n (0 : Fin 1)) = normsX m c (ix1 n) := by
  rw [colNormsX_eq]
  exact broadcastInDim_apply _ bcast_S16384_S16384x1_0 _ _ (ix1 n) (fun a => by
    match a with
    | ⟨0, _⟩ => show n.val = if (16384 : Nat) = 1 then 0 else n.val; rw [if_neg (by decide)])

/-- The row of column norms at (0, k). -/
theorem rowNormsY_at (k : Fin 8192) : V m c main_v6 (ix2 (0 : Fin 1) k) = normsY m c (ix1 k) := by
  rw [rowNormsY_eq]
  rw [transpose_apply [1, 0] _ transposes_S8192x1_S1x8192_1_0 (ix2 (0 : Fin 1) k) (ix2 k (0 : Fin 1)) (fun b => by
    match b with
    | ⟨0, _⟩ => rfl
    | ⟨1, _⟩ => rfl)]
  exact broadcastInDim_apply _ bcast_S8192_S8192x1_0 _ _ (ix1 k) (fun a => by
    match a with
    | ⟨0, _⟩ => show k.val = if (8192 : Nat) = 1 then 0 else k.val; rw [if_neg (by decide)])

/-! ## The blocks of a point -/

/-- The printed index maps over the grid: row block `t / 4`, column block `t mod 4`. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = 0
    ∧ win0_4.index t (0 : Fin 2) = 0 ∧ win0_4.index t (1 : Fin 2) = t.val % 4
    ∧ win0_5.index t (0 : Fin 2) = t.val / 4 ∧ win0_5.index t (1 : Fin 2) = 0 :=
  (by decide +kernel : ∀ t : Fin grid0.N, _)

theorem N_eq : cfg0.N = 32 := N_0

/-- The row of the arrays that local row `r` of point `t` is. -/
abbrev rowOf (t : Fin cfg0.N) (r : Fin 2048) : Fin 16384 :=
  ⟨2048 * (t.val / 4) + r.val, by have := t.isLt; have := N_eq; have := r.isLt; omega⟩

/-- The column of the arrays that local column `k` of point `t` is. -/
abbrev colOf (t : Fin cfg0.N) (k : Fin 2048) : Fin 8192 :=
  ⟨2048 * (t.val % 4) + k.val, by have := k.isLt; omega⟩

theorem blkX_at (t : Fin cfg0.N) (r : Fin 2048) (d : Fin 512) :
    blkX m c t (ix2 r d) = argX m c (ix2 (rowOf t r) d) := by
  obtain ⟨e0, e1, -⟩ := idx_facts t
  unfold blkX iblk
  rw [View.read_apply]
  show V m c main_v7 _ = _
  rw [narrowX_eq]
  refine congrArg (argX m c) (funext fun a => Fin.ext ?_)
  match a with
  | ⟨0, _⟩ => show win0_0.index t (0 : Fin 2) * 2048 + 1 * r.val = 2048 * (t.val / 4) + r.val; rw [e0]; omega
  | ⟨1, _⟩ => show win0_0.index t (1 : Fin 2) * 512 + 1 * d.val = d.val; rw [e1]; omega

theorem blkY_at (t : Fin cfg0.N) (k : Fin 2048) (d : Fin 512) :
    blkY m c t (ix2 k d) = argY m c (ix2 (colOf t k) d) := by
  obtain ⟨-, -, e0, e1, -⟩ := idx_facts t
  unfold blkY iblk
  rw [View.read_apply]
  show V m c main_v8 _ = _
  rw [narrowY_eq]
  refine congrArg (argY m c) (funext fun a => Fin.ext ?_)
  match a with
  | ⟨0, _⟩ => show win0_1.index t (0 : Fin 2) * 2048 + 1 * k.val = 2048 * (t.val % 4) + k.val; rw [e0]; omega
  | ⟨1, _⟩ => show win0_1.index t (1 : Fin 2) * 512 + 1 * d.val = d.val; rw [e1]; omega

theorem blkW_at (t : Fin cfg0.N) (k : Fin 2048) :
    blkW m c t (ix2 (0 : Fin 1) k) = argW m c (ix2 (0 : Fin 1) (colOf t k)) := by
  obtain ⟨-, -, -, -, e0, e1, -⟩ := idx_facts t
  unfold blkW iblk
  rw [View.read_apply]
  show V m c main_arg2 _ = _
  rw [V_main_arg2]
  refine congrArg (argW m c) (funext fun a => Fin.ext ?_)
  match a with
  | ⟨0, _⟩ => show win0_2.index t (0 : Fin 2) * 1 + 1 * 0 = 0; rw [e0]
  | ⟨1, _⟩ => show win0_2.index t (1 : Fin 2) * 2048 + 1 * k.val = 2048 * (t.val % 4) + k.val; rw [e1]; omega

theorem blkXX_at (t : Fin cfg0.N) (r : Fin 2048) :
    blkXX m c t (ix2 r (0 : Fin 1)) = normsX m c (ix1 (rowOf t r)) := by
  obtain ⟨-, -, -, -, -, -, e0, e1, -⟩ := idx_facts t
  unfold blkXX iblk
  rw [View.read_apply]
  show V m c main_v2 _ = _
  refine Eq.trans (congrArg (V m c main_v2) (funext fun a => Fin.ext ?_)) (colNormsX_at m c (rowOf t r))
  match a with
  | ⟨0, _⟩ => show win0_3.index t (0 : Fin 2) * 2048 + 1 * r.val = 2048 * (t.val / 4) + r.val; rw [e0]; omega
  | ⟨1, _⟩ => show win0_3.index t (1 : Fin 2) * 1 + 1 * 0 = 0; rw [e1]

theorem blkYY_at (t : Fin cfg0.N) (k : Fin 2048) :
    blkYY m c t (ix2 (0 : Fin 1) k) = normsY m c (ix1 (colOf t k)) := by
  obtain ⟨-, -, -, -, -, -, -, -, e0, e1, -⟩ := idx_facts t
  unfold blkYY iblk
  rw [View.read_apply]
  show V m c main_v6 _ = _
  refine Eq.trans (congrArg (V m c main_v6) (funext fun a => Fin.ext ?_)) (rowNormsY_at m c (colOf t k))
  match a with
  | ⟨0, _⟩ => show win0_4.index t (0 : Fin 2) * 1 + 1 * 0 = 0; rw [e0]
  | ⟨1, _⟩ => show win0_4.index t (1 : Fin 2) * 2048 + 1 * k.val = 2048 * (t.val % 4) + k.val; rw [e1]; omega

/-! ## The product the body forms at a local position -/

/-- The specification's row of products, for the row that local row `r` of point `t` is. -/
abbrev rowTerms (t : Fin cfg0.N) (r : Fin 2048) : ℕ → EReal :=
  termN (normsX m c) (normsY m c) (argX m c) (argY m c) (argW m c) (rowOf t r)

/-- At point `t` of column block `j`, the Gram entry times the weight at local (r, k) is the specification's
    term of the row and of column `2048·j + k`. -/
theorem block_term (t : Fin cfg0.N) (j : ℕ) (hj : t.val % 4 = j) (r : Fin 2048) (k : ℕ) (hk : k < 2048) :
    at2 (k0_pay4 (F := Ideal) (blkX m c t) (blkY m c t) (blkXX m c t) (blkYY m c t)) r.val k * at2 (blkW m c t) 0 k
      = rowTerms m c t r (2048 * j + k) := by
  subst hj
  have hcol : 2048 * (t.val % 4) + k < 8192 := by omega
  show at2 _ r.val (⟨k, hk⟩ : Fin 2048).val * at2 (blkW m c t) (0 : Fin 1).val (⟨k, hk⟩ : Fin 2048).val = _
  rw [at2_of_lt, at2_of_lt, gram_block]
  unfold rowTerms termN
  rw [dif_pos hcol]
  unfold term GramProjection.inner
  rw [blkXX_at, blkYY_at, blkW_at]
  simp only [blkX_at, blkY_at]

end Cert.KernelIdeal.KernelValue

end
-- ==== Proof.OutputColumn.lean ====
/-
  The call's output array, and the program's result.

  By induction along the grid's walk, after column block `j` of a row block the accumulator's entry at
  (r, l) is the specification's running sum `accUpTo` of the row's products over blocks `0 … j`: a row
  block's first point starts it from zero, each later point adds its block's partial sum, and moving from
  a point to the next inside a row block does not change the row.  At a row block's last point the
  output block is the lane sum of the finished accumulator, and those are the only points written back;
  their blocks tile the output column.  So the column ends holding, at row n, the sum over the 128 lanes
  of the row's lane totals.  The host operations after the call drop the unit axis and add the bias,
  which by the regrouping law is the specification's result.
-/
import proofs.«429122_j65481071407811_3_alg».proof.Proof.ArrayReads

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.AccValue Cert.KernelIdeal.BlockValue
open Idealize.ShloMosaic.ValueIdx Cert.GramProjection

variable (m : (ℓ : Loc nD τ sig) → Buf (Elt Ideal) ℓ) (c : Dev nD)

/-! ## The running sum -/

/-- One update at (r, l), over the point's named blocks. -/
theorem step_at (t : Fin cfg0.N) (acc : Vec Ideal S2048x128 .f32) (r : Fin 2048) (l : Fin 128) :
    step (blkX m c t) (blkY m c t) (blkW m c t) (blkXX m c t) (blkYY m c t) acc (ix2 r l)
      = acc (ix2 r l) + lanePartial (fun k =>
          at2 (k0_pay4 (F := Ideal) (blkX m c t) (blkY m c t) (blkXX m c t) (blkYY m c t)) r.val k * at2 (blkW m c t) 0 k) l.val :=
  update_apply (blkW m c t) (k0_pay4 (F := Ideal) (blkX m c t) (blkY m c t) (blkXX m c t) (blkYY m c t)) acc r l

/-- After point `n`, of column block `j = n mod 4`, the accumulator holds the row's running sum over the
    column blocks `0 … j`. -/
theorem acc_eq : ∀ (n : ℕ) (h : n < cfg0.N) (j : ℕ) (hj : n % 4 = j) (r : Fin 2048) (l : Fin 128),
    accAt m c n h (ix2 r l) = accUpTo (rowTerms m c ⟨n, h⟩ r) j l.val := by
  intro n
  induction n with
  | zero =>
    intro h j hj r l
    obtain rfl : j = 0 := by omega
    refine (congrFun (accAt_first m c ⟨0, h⟩ rfl) (ix2 r l)).trans ?_
    rw [step_at, zero_block]
    show 0 + lanePartial _ l.val = 0 + lanePartial (fun q => rowTerms m c ⟨0, h⟩ r (2048 * 0 + q)) l.val
    exact congrArg (0 + ·) (lanePartial_congr l.isLt fun k hk => block_term m c ⟨0, h⟩ 0 rfl r k hk)
  | succ n ih =>
    intro h j hj r l
    by_cases h0 : (n + 1) % 4 = 0
    · obtain rfl : j = 0 := by omega
      refine (congrFun (accAt_first m c ⟨n + 1, h⟩ h0) (ix2 r l)).trans ?_
      rw [step_at, zero_block]
      show 0 + lanePartial _ l.val = 0 + lanePartial (fun q => rowTerms m c ⟨n + 1, h⟩ r (2048 * 0 + q)) l.val
      exact congrArg (0 + ·) (lanePartial_congr l.isLt fun k hk => block_term m c ⟨n + 1, h⟩ 0 h0 r k hk)
    · obtain ⟨j', rfl⟩ : ∃ j', j = j' + 1 := ⟨j - 1, by omega⟩
      refine (congrFun (accAt_next m c ⟨n + 1, h⟩ h0) (ix2 r l)).trans ?_
      rw [step_at]
      have hrow : rowOf ⟨n, Nat.lt_of_succ_lt h⟩ r = rowOf ⟨n + 1, h⟩ r :=
        Fin.ext (by show 2048 * (n / 4) + r.val = 2048 * ((n + 1) / 4) + r.val; omega)
      show accAt m c n (Nat.lt_of_succ_lt h) (ix2 r l) + _
        = accUpTo (rowTerms m c ⟨n + 1, h⟩ r) j' l.val
          + lanePartial (fun q => rowTerms m c ⟨n + 1, h⟩ r (2048 * (j' + 1) + q)) l.val
      rw [ih (Nat.lt_of_succ_lt h) j' (by omega) r l]
      unfold rowTerms
      rw [hrow]
      exact congrArg (_ + ·) (lanePartial_congr l.isLt fun k hk => block_term m c ⟨n + 1, h⟩ (j' + 1) hj r k hk)

/-! ## The output column -/

/-- What the output column ends holding: at row n, the 128 lanes of the row's lane totals added up. -/
abbrev rowSums : S16384x1.Idx → EReal := fun i =>
  ∑ l : Fin 128, laneTotal (termN (normsX m c) (normsY m c) (argX m c) (argY m c) (argW m c) (i 0)) l.val

/-- The lane sum at any index of the output block. -/
theorem lane_sum_at (v : FVec Ideal S2048x128 .f32) (y : S2048x1.Idx) :
    k0_pay2 (F := Ideal) v y = ∑ l : Fin 128, v (ix2 (y 0) l) := by
  have h1 : (y 1).val < 1 := (y 1).isLt
  have e : y 1 = (0 : Fin 1) := Fin.ext (by show (y 1).val = (0 : Fin 1).val; show (y 1).val = 0; omega)
  have hy : y = ix2 (y 0) (0 : Fin 1) := (eq_ix2 y).trans (congrArg (ix2 (y 0)) e)
  rw [hy]
  exact lane_sum v (y 0)

/-- What a write-back writes is its block of that column. -/
theorem flushed_eq (t : Fin cfg0.N) (hf : (cfg0.win 5).flush t = true) :
    (dats m 0 c).flushed 5 t = ((cfg0.win 5).blk t).view.read (Elt Ideal) (rowSums m c) := by
  have h3 : t.val % 4 = 3 := (flush0_5 t).mp hf
  obtain ⟨-, -, -, -, -, -, -, -, -, -, e0, e1⟩ := idx_facts t
  show (cfg0.win 5).cut (grid0.coords t) ((dats m 0 c).after 5 t) = _
  rw [after0_5]
  funext y
  rw [View.read_apply]
  show outAt m c t.val t.isLt y = rowSums m c (((cfg0.win 5).blk t).view.emb y)
  rw [outAt_last m c t h3, lane_sum_at]
  have hemb : (((cfg0.win 5).blk t).view.emb y) (0 : Fin 2) = rowOf t (y 0) := by
    apply Fin.ext
    show win0_5.index t (0 : Fin 2) * 2048 + 1 * (y 0).val = 2048 * (t.val / 4) + (y 0).val
    rw [e0]; omega
  show _ = ∑ l : Fin 128, laneTotal (termN (normsX m c) (normsY m c) (argX m c) (argY m c) (argW m c) ((((cfg0.win 5).blk t).view.emb y) (0 : Fin 2))) l.val
  rw [hemb]
  exact Finset.sum_congr rfl fun l _ => (acc_eq m c t.val t.isLt 3 h3 (y 0) l).trans (accUpTo_three _ _)

/-- Every index of the column is in the block of its row block's last point. -/
theorem covered (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  have hN := N_eq
  have hlt : 4 * ((i 0).val / 2048) + 3 < cfg0.N := by omega
  obtain ⟨-, -, -, -, -, -, -, -, -, -, e0, e1⟩ := idx_facts ⟨4 * ((i 0).val / 2048) + 3, hlt⟩
  refine ⟨⟨4 * ((i 0).val / 2048) + 3, hlt⟩, (flush0_5 _).mpr (by show (4 * ((i 0).val / 2048) + 3) % 4 = 3; omega), ?_⟩
  show i ∈ ((View.whole main_v9).slice (win0_5.rect ⟨4 * ((i 0).val / 2048) + 3, hlt⟩)).set
  rw [View.set_slice_whole, Rect.mem_set_unit]
  intro a
  match a with
  | ⟨0, _⟩ =>
    show win0_5.index ⟨4 * ((i 0).val / 2048) + 3, hlt⟩ (0 : Fin 2) * 2048 ≤ (i 0).val
      ∧ (i 0).val < win0_5.index ⟨4 * ((i 0).val / 2048) + 3, hlt⟩ (0 : Fin 2) * 2048 + 2048
    rw [e0]
    show (4 * ((i 0).val / 2048) + 3) / 4 * 2048 ≤ (i 0).val ∧ (i 0).val < (4 * ((i 0).val / 2048) + 3) / 4 * 2048 + 2048
    omega
  | ⟨1, _⟩ =>
    show win0_5.index ⟨4 * ((i 0).val / 2048) + 3, hlt⟩ (1 : Fin 2) * 1 ≤ (i 1).val
      ∧ (i 1).val < win0_5.index ⟨4 * ((i 0).val / 2048) + 3, hlt⟩ (1 : Fin 2) * 1 + 1
    rw [e1]
    omega

/-- So the call leaves the output column at the rows' lane sums. -/
theorem column_eq : (dats m 0 c).arrAt 5 cfg0.N = rowSums m c :=
  (dats m 0 c).arrAt_eq_of_cover 5 (rowSums m c) (flushed_eq m c) covered

end Cert.KernelIdeal.KernelValue

end
-- ==== Proof.KernelResult.lean ====
/-
  The idealized kernel's run, read: its result array ends at the specification's result.

  After the call the host drops the output column's unit axis and adds the bias, broadcast from its one
  entry.  The column holds the rows' lane sums, which by the regrouping law are the rows' sums over all
  8192 columns; so the result at n is Σₘ K[n, m] · W[0, m] + b[0].
-/
import proofs.«429122_j65481071407811_3_alg».proof.Proof.OutputColumn

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.AccValue Cert.KernelIdeal.BlockValue
open Idealize.ShloMosaic.ValueIdx Cert.GramProjection

variable (m : (ℓ : Loc nD τ sig) → Buf (Elt Ideal) ℓ)

/-- What the operations after the call find in the output column: the rows' lane sums. -/
theorem column_after (c : Dev nD) :
    Pipeline.withArrays (cfgs 0).spec c (V0 m c) (fun w => (dats m 0 c).arrAt w (cfgs 0).N) (Proc.devRef .tc main_v9)
      = rowSums m c :=
  (Pipeline.withArrays_arr spec0 launch0.win.arr_inj c _ _ 5).trans (column_eq m c)

/-- And in the bias: what was launched. -/
theorem bias_after (c : Dev nD) :
    Pipeline.withArrays (cfgs 0).spec c (V0 m c) (fun w => (dats m 0 c).arrAt w (cfgs 0).N) (Proc.devRef .tc main_arg3)
      = argB m c :=
  (Pipeline.withArrays_of_ne _ c (V0 m c) _ main_arg3 (by exact (by decide : ∀ w, Pipeline.arrRef spec0 w ≠ main_arg3))).trans
    (V_main_arg3 m c)

/-- The one-entry bias with its axis dropped, read anywhere: its entry. -/
theorem bias_at (x : FVec Ideal S1 .f32) (h : S1.ShapeCasts S_) (j : S_.Idx) :
    shapeCast S_ x h j = x (ix1 (0 : Fin 1)) := by
  unfold shapeCast
  refine congrArg x (funext fun a => ?_)
  match a with
  | ⟨0, _⟩ =>
    exact Fin.ext (by
      have h1 : ((Shape.reshapeEquiv h j) 0).val < 1 := ((Shape.reshapeEquiv h j) 0).isLt
      show ((Shape.reshapeEquiv h j) 0).val = 0
      omega)

/-- The program's result array. -/
theorem result_eq (c : Dev nD) :
    Pipeline.afterTail₀ cfgs (dats m) 0 (V0 m) [hostOps1] c main_v13
      = result (normsX m c) (normsY m c) (argX m c) (argY m c) (argW m c) (argB m c) := by
  unfold Pipeline.afterTail₀
  show StableHlo.after hostOps1 _ (Proc.devRef .tc main_v13) = _
  after_results
  rw [column_after, bias_after]
  funext i
  show shapeCast S16384 (rowSums m c) shapeCasts_S16384x1_S16384 i
      + broadcastInDim S16384 ![] bcast_S_S16384 (fun j => shapeCast S_ (argB m c) shapeCasts_S1_S_ j) i
    = (∑ k : Fin 8192, term (normsX m c) (normsY m c) (argX m c) (argY m c) (argW m c) (i 0) k) + argB m c (ix1 (0 : Fin 1))
  refine congrArg₂ (· + ·) ?_ ?_
  · rw [shapeCast_apply (rowSums m c) shapeCasts_S16384x1_S16384 i (ix2 (i 0) (0 : Fin 1))
      (by rewrite [Shape.rowMajor_val_two, Shape.rowMajor_val_one]; show (i 0).val * 1 + 0 = (i 0).val; omega)]
    exact sum_lanes_eq _ _ _ _ _ (i 0)
  · rw [broadcastInDim_apply _ bcast_S_S16384 _ i ix0 (fun a => a.elim0)]
    exact bias_at (argB m c) shapeCasts_S1_S_ ix0

/-- THE RUN: every weakly fair execution of the idealized kernel ends with the result array at the
    specification's result and the four arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v13)
        = result (normsX m c) (normsY m c) (argX m c) (argY m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.lean ====
/-
  A Gaussian Gram matrix projected on one weight row: the kernel against its reference.

  Both programs compute, for the rows xₙ of `X` (16384 × 512) and yₘ of `Y` (8192 × 512),
      result[n] = Σₘ exp (c · max ((|xₙ|² + |yₘ|²) − 2 · ⟨xₙ, yₘ⟩, 0)) · W[0, m] + b[0]
  with the same words for `c`, `2` and `0`, and the same host reduction for the squared norms.  The
  reference adds a row's 8192 products in one contraction.  The kernel walks an 8 × 4 grid of
  2048 × 2048 blocks: at each point it forms the block's Gram entries (a matrix product into a zero
  accumulator, over the extended reals the plain inner products; narrowing the operands to a 16-bit
  format changes nothing there), folds the sixteen 128-lane groups of the weighted entries into a
  partial sum, carries the sum of the four column blocks' partial sums in an accumulator that restarts
  at each row block, and at the row block's last point writes the accumulator's lane sums to the
  output; the host then adds the bias.  Over a commutative monoid the two groupings of the 8192
  products agree (Proof/GramProjection.lean), so the claim needs no finiteness of the inputs.

  Proof/GramProjection.lean   the specification and the regrouping law;
  Proof/ReferenceResult.lean  the reference's last stage is the specification's result;
  Proof/AccumulatorCases.lean, Proof/PointContents.lean   what each grid point leaves, case by case;
  Proof/BlockArithmetic.lean  the body's arithmetic at an index;
  Proof/ArrayReads.lean       the windows' blocks as entries of the arrays;
  Proof/OutputColumn.lean     the running sum by induction along the grid, the output column;
  Proof/KernelResult.lean     the host operations after the call, and the kernel's run.
  The three frames are the generated ones; the ideal pass rewrote nothing, so `preserves` is trivial.
-/
import proofs.«429122_j65481071407811_3_alg».proof.Defs
import proofs.«429122_j65481071407811_3_alg».proof.Proof.Gen.Kernel
import proofs.«429122_j65481071407811_3_alg».proof.Proof.Gen.Kernel.Frame
import proofs.«429122_j65481071407811_3_alg».proof.Proof.Gen.KernelIdeal
import proofs.«429122_j65481071407811_3_alg».proof.Proof.Gen.KernelIdeal.Frame
import proofs.«429122_j65481071407811_3_alg».proof.Proof.Gen.ReferenceIdeal
import proofs.«429122_j65481071407811_3_alg».proof.Proof.Gen.Pre_finite_inputs
import proofs.«429122_j65481071407811_3_alg».proof.Proof.Gen.ReferenceIdeal.Run
import proofs.«429122_j65481071407811_3_alg».proof.Proof.Gen.ReferenceIdeal.Read
import proofs.«429122_j65481071407811_3_alg».proof.Proof.GramProjection
import proofs.«429122_j65481071407811_3_alg».proof.Proof.ReferenceResult
import proofs.«429122_j65481071407811_3_alg».proof.Proof.KernelResult
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The squared norms the two programs' host reductions write are one vector each. -/
theorem normsX_eq (m : (ℓ : Loc Cert.KernelIdeal.nD Cert.KernelIdeal.τ Cert.KernelIdeal.sig) → Buf (Elt Ideal) ℓ)
    (c : Dev Cert.KernelIdeal.nD) :
    Cert.ReferenceIdeal.Read.val_main_v1 (F := Ideal) (Cert.KernelIdeal.KernelValue.argX m c)
      = Cert.KernelIdeal.KernelValue.normsX m c := rfl

theorem normsY_eq (m : (ℓ : Loc Cert.KernelIdeal.nD Cert.KernelIdeal.τ Cert.KernelIdeal.sig) → Buf (Elt Ideal) ℓ)
    (c : Dev Cert.KernelIdeal.nD) :
    Cert.ReferenceIdeal.Read.val_main_v4 (F := Ideal) (Cert.KernelIdeal.KernelValue.argY m c)
      = Cert.KernelIdeal.KernelValue.normsY m c := rfl

/-- Both runs end at the specification's result of the launched arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.GramProjection.result (Cert.KernelIdeal.KernelValue.normsX m c) (Cert.KernelIdeal.KernelValue.normsY m c)
    (Cert.KernelIdeal.KernelValue.argX m c) (Cert.KernelIdeal.KernelValue.argY m c) (Cert.KernelIdeal.KernelValue.argW m c)
    (Cert.KernelIdeal.KernelValue.argB m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq_result,
    (hagree c).1, (hagree c).2.1, (hagree c).2.2.1, (hagree c).2.2.2]
  exact congrArg₂ (fun a b => Cert.GramProjection.result a b (Cert.KernelIdeal.KernelValue.argX m c)
      (Cert.KernelIdeal.KernelValue.argY m c) (Cert.KernelIdeal.KernelValue.argW m c) (Cert.KernelIdeal.KernelValue.argB m c))
    (normsX_eq m c) (normsY_eq m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
